-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S1x256 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1x256 .f32 := Host.absf main_arg9
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S256 .f32) (main_arg7 : FVec F S256x256 .f32) (main_arg8 : FVec F S256 .f32) (main_arg9 : FVec F S1x256 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S256x128 .f32) (main_arg6 : FVec F S256 .f32) (main_arg7 : FVec F S256x256 .f32) (main_arg8 : FVec F S256 .f32) (main_arg9 : FVec F S1x256 .f32) (main_arg10 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x256 : Shape := ⟨2, ![128, 256]⟩
abbrev S256x1 : Shape := ⟨2, ![256, 1]⟩
abbrev S1x128 : Shape := ⟨2, ![1, 128]⟩
abbrev S1x1 : Shape := ⟨2, ![1, 1]⟩
abbrev S10000x1 : Shape := ⟨2, ![10000, 1]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 45
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S10000x128, .f32⟩
  | .hbm, ⟨26, _⟩ => ⟨S640000x1, .i32⟩
  | .hbm, ⟨27, _⟩ => ⟨S10000x128, .f32⟩
  | .hbm, ⟨28, _⟩ => ⟨S10000x128, .bf16⟩
  | .hbm, ⟨29, _⟩ => ⟨S10000x128, .bf16⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S128x256, .f32⟩
  | .hbm, ⟨35, _⟩ => ⟨S128x256, .bf16⟩
  | .hbm, ⟨36, _⟩ => ⟨S256x256, .f32⟩
  | .hbm, ⟨37, _⟩ => ⟨S256x256, .bf16⟩
  | .hbm, ⟨38, _⟩ => ⟨S256x1, .f32⟩
  | .hbm, ⟨39, _⟩ => ⟨S256x1, .bf16⟩
  | .hbm, ⟨40, _⟩ => ⟨S1x128, .f32⟩
  | .hbm, ⟨41, _⟩ => ⟨S1x256, .f32⟩
  | .hbm, ⟨42, _⟩ => ⟨S1x256, .f32⟩
  | .hbm, ⟨43, _⟩ => ⟨S1x1, .f32⟩
  | .hbm, ⟨44, _⟩ => ⟨S10000x1, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S128x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x1, .bf16⟩
  | .local _ .vmem, ⟨12, _⟩ => ⟨S1x1, .f32⟩
  | .local _ .vmem, ⟨13, _⟩ => ⟨S2000x1, .f32⟩
  | .local _ .vmem, ⟨14, _⟩ => ⟨S2000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bitsLt_bf16_f32 : FTy.bits .bf16 < FTy.bits .f32
  transposes_S128x128_S128x128_1_0 : S128x128.Transposes [1, 0] S128x128
  transposes_S256x128_S128x256_1_0 : S256x128.Transposes [1, 0] S128x256
  transposes_S256x256_S256x256_1_0 : S256x256.Transposes [1, 0] S256x256
  transposes_S1x256_S256x1_1_0 : S1x256.Transposes [1, 0] S256x1
  shapeCasts_S128_S1x128 : S128.ShapeCasts S1x128
  shapeCasts_S256_S1x256 : S256.ShapeCasts S1x256
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .bf16 = 32 ∨ (Rect.block (s := S10000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .bf16 = 32 ∨ (Rect.block (s := S10000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .bf16 = 32 ∨ (Rect.block (s := S256x1) S256x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S10000x1.size a
  hwx0_11 : ∀ i : grid0.Coords, EltTy.bits .f32 = 32 ∨ (Rect.block (s := S10000x1) S2000x1.size (cc0_transform_11 i) (hinb0_11 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S2000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S128x256 : Shape := ⟨2, ![128, 256]⟩
abbrev S10000x256 : Shape := ⟨2, ![10000, 256]⟩
abbrev S256x1 : Shape := ⟨2, ![256, 1]⟩
abbrev S10000x1 : Shape := ⟨2, ![10000, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S10000x128, .f32⟩
  | .hbm, ⟨26, _⟩ => ⟨S640000x1, .i32⟩
  | .hbm, ⟨27, _⟩ => ⟨S10000x128, .f32⟩
  | .hbm, ⟨28, _⟩ => ⟨S128x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S128x128, .f32⟩
  | .hbm, ⟨34, _⟩ => ⟨S10000x128, .f32⟩
  | .hbm, ⟨35, _⟩ => ⟨S10000x128, .f32⟩
  | .hbm, ⟨36, _⟩ => ⟨S128x256, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S_, .f32⟩
  | .hbm, ⟨42, _⟩ => ⟨S10000x256, .f32⟩
  | .hbm, ⟨43, _⟩ => ⟨S10000x256, .f32⟩
  | .hbm, ⟨44, _⟩ => ⟨S256x256, .f32⟩
  | .hbm, ⟨45, _⟩ => ⟨S10000x256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S_, .f32⟩
  | .hbm, ⟨50, _⟩ => ⟨S10000x256, .f32⟩
  | .hbm, ⟨51, _⟩ => ⟨S10000x256, .f32⟩
  | .hbm, ⟨52, _⟩ => ⟨S256x1, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S10000x1, .f32⟩
  | .hbm, ⟨64, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  dot_S10000x256_S256x1_S10000x1_1_0_0_1_n_n_wf : DotDims.WF S10000x256 S256x1 S10000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Spec.lean ====
/-
  One node of a graph convolution followed by a three-layer perceptron, on the extended reals.

  For a node with aggregated neighbour features `a` and own features `x` (128 numbers each):
    h  = (a · W_relᵀ + b_rel) + x · W_rootᵀ            (128 numbers; the sum grouped exactly so)
    h₁ = max (h · W₁ᵀ + b₁, 0)                          (256 numbers)
    h₂ = max (h₁ · W₂ᵀ + b₂, 0)                         (256 numbers)
    s  = h₂ · W₃ᵀ + b₃                                  (one number)
    y  = 1 / (1 + e^(-s))
  Every product `v · Wᵀ` is the plain sum over the shared axis. Nothing here is rearranged between the two programs
  this certificate compares (no distributivity, no cancelling), so no finiteness is needed: the equalities hold at
  every extended real.
-/
import Idealize.ShloMosaic.PureOps.Ideal
import Idealize.ShloMosaic.Lib.ValueIdx

noncomputable section

namespace Cert.NodeMlp

open Idealize.ShloMosaic Idealize.ShloMosaic.ValueIdx

/-- The rectifier: the larger of a value and the f32 zero word's value. -/
def relu (v : EReal) : EReal := max v (Ideal.ofBits .f32 0x00000000#32)

/-- The graph convolution's output feature `d` for one node. `wrel k d` and `wroot k d` are the weights that take
    input feature `k` to output feature `d`. The bias is added to the first product before the second product is. -/
def conv (a x : Fin 128 → EReal) (wrel : Fin 128 → Fin 128 → EReal) (brel : Fin 128 → EReal)
    (wroot : Fin 128 → Fin 128 → EReal) (d : Fin 128) : EReal :=
  (∑ k : Fin 128, a k * wrel k d) + brel d + ∑ k : Fin 128, x k * wroot k d

/-- The first hidden layer's unit `j`. -/
def hidden1 (h : Fin 128 → EReal) (w1 : Fin 128 → Fin 256 → EReal) (b1 : Fin 256 → EReal) (j : Fin 256) : EReal :=
  relu ((∑ d : Fin 128, h d * w1 d j) + b1 j)

/-- The second hidden layer's unit `j`. -/
def hidden2 (h : Fin 256 → EReal) (w2 : Fin 256 → Fin 256 → EReal) (b2 : Fin 256 → EReal) (j : Fin 256) : EReal :=
  relu ((∑ i : Fin 256, h i * w2 i j) + b2 j)

/-- The output layer's one pre-activation. -/
def score (h : Fin 256 → EReal) (w3 : Fin 256 → EReal) (b3 : EReal) : EReal :=
  (∑ i : Fin 256, h i * w3 i) + b3

/-- One node's result: the logistic function of the output layer's pre-activation. -/
def node (a x : Fin 128 → EReal) (wrel : Fin 128 → Fin 128 → EReal) (brel : Fin 128 → EReal)
    (wroot : Fin 128 → Fin 128 → EReal) (w1 : Fin 128 → Fin 256 → EReal) (b1 : Fin 256 → EReal)
    (w2 : Fin 256 → Fin 256 → EReal) (b2 : Fin 256 → EReal) (w3 : Fin 256 → EReal) (b3 : EReal) : EReal :=
  Ideal.logistic (score (hidden2 (hidden1 (conv a x wrel brel wroot) w1 b1) w2 b2) w3 b3)

/-- The whole result array: row `n` is `node` of row `n` of the aggregated features `agg` and of the features `x`,
    with the weight matrices as the programs receive them (`W[out, in]`, so the weight from input `k` to output `d` is
    `W (d, k)`) and the biases as vectors. -/
def out (agg x : (⟨2, ![10000, 128]⟩ : Shape).Idx → EReal)
    (Wrel : (⟨2, ![128, 128]⟩ : Shape).Idx → EReal) (brel : (⟨1, ![128]⟩ : Shape).Idx → EReal)
    (Wroot : (⟨2, ![128, 128]⟩ : Shape).Idx → EReal)
    (W1 : (⟨2, ![256, 128]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![1, 256]⟩ : Shape).Idx → EReal) (b3 : (⟨1, ![1]⟩ : Shape).Idx → EReal) :
    (⟨2, ![10000, 1]⟩ : Shape).Idx → EReal := fun i =>
  node (fun k => agg (ix2 (i 0) k)) (fun k => x (ix2 (i 0) k))
    (fun k d => Wrel (ix2 d k)) (fun d => brel (ix1 d)) (fun k d => Wroot (ix2 d k))
    (fun d j => W1 (ix2 j d)) (fun j => b1 (ix1 j))
    (fun i j => W2 (ix2 j i)) (fun j => b2 (ix1 j))
    (fun i => W3 (ix2 (0 : Fin 1) i)) (b3 (ix1 (0 : Fin 1)))

/-- The result array read at row `p` (its one column): the node function of row `p`. -/
theorem out_apply (agg x : (⟨2, ![10000, 128]⟩ : Shape).Idx → EReal)
    (Wrel : (⟨2, ![128, 128]⟩ : Shape).Idx → EReal) (brel : (⟨1, ![128]⟩ : Shape).Idx → EReal)
    (Wroot : (⟨2, ![128, 128]⟩ : Shape).Idx → EReal)
    (W1 : (⟨2, ![256, 128]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![1, 256]⟩ : Shape).Idx → EReal) (b3 : (⟨1, ![1]⟩ : Shape).Idx → EReal) (p : Fin 10000) :
    out agg x Wrel brel Wroot W1 b1 W2 b2 W3 b3 (ix2 p (0 : Fin 1))
      = node (fun k => agg (ix2 p k)) (fun k => x (ix2 p k))
          (fun k d => Wrel (ix2 d k)) (fun d => brel (ix1 d)) (fun k d => Wroot (ix2 d k))
          (fun d j => W1 (ix2 j d)) (fun j => b1 (ix1 j))
          (fun i j => W2 (ix2 j i)) (fun j => b2 (ix1 j))
          (fun i => W3 (ix2 (0 : Fin 1) i)) (b3 (ix1 (0 : Fin 1))) := rfl

/-- The f32 word of one denotes the number one. -/
theorem one_word : Ideal.ofBits .f32 0x3F800000#32 = 1 := by
  simp [Ideal.ofBits, Ideal.ieee, -EReal.coe_mul]; norm_num

/-- The logistic function spelt with the f32 words of one: `1 / (1 + e^(-s))`. -/
theorem logistic_words (s : EReal) :
    Ideal.div (Ideal.ofBits .f32 0x3F800000#32) (Ideal.ofBits .f32 0x3F800000#32 + Ideal.exp (-s)) = Ideal.logistic s := by
  rw [one_word]; rfl

end Cert.NodeMlp

end
-- ==== Proof.KernelRow.lean ====
/-
  What the kernel body computes for one row of a block, on the extended reals.

  The body takes a block of 2000 rows of aggregated features and of node features, and the weights already transposed
  (input feature first), and stores one number per row. Row `p` of the stored column depends only on row `p` of the two
  feature blocks: it is the node function `NodeMlp.node` of those two rows. Each of the four matrix products is into a zero
  accumulator, hence the plain sum over the shared axis; each bias is one row broadcast over the 2000 rows; the changes of
  float format between layers are the identity on the extended reals.
-/
import proofs.«166283_j7052336300582_1_alg».proof.Proof.Gen.KernelIdeal.Skeleton
import proofs.«166283_j7052336300582_1_alg».proof.Proof.LibPlainDot
import proofs.«166283_j7052336300582_1_alg».proof.Proof.Spec
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-- One affine layer read at row `p`, column `q`: a product into a zero accumulator plus a bias row broadcast over the
    rows is the sum over the shared axis plus the bias at `q`. -/
theorem affine_apply {R K C : ℕ} {d : DotDims ⟨2, ![R, K]⟩ ⟨2, ![K, C]⟩ ⟨2, ![R, C]⟩} (hd : PlainDot.IsPlain d) {φ₁ φ₂ : FTy}
    (l : FVec Ideal ⟨2, ![R, K]⟩ φ₁) (r : FVec Ideal ⟨2, ![K, C]⟩ φ₂) (b : FVec Ideal ⟨2, ![1, C]⟩ .f32)
    (hb : (⟨2, ![1, C]⟩ : Shape).Broadcasts ⟨2, ![R, C]⟩) (p : Fin R) (q : Fin C) :
    addf (matmul d none l r (constant ⟨2, ![R, C]⟩ .f32 0x00000000#32)) (broadcastTo ⟨2, ![R, C]⟩ b hb) (ix2 p q)
      = (∑ k : Fin K, l (ix2 p k) * r (ix2 k q)) + b (ix2 (0 : Fin 1) q) := by
  show FloatOps.matmul d none l r (constant ⟨2, ![R, C]⟩ .f32 0x00000000#32) (ix2 p q) + broadcastTo ⟨2, ![R, C]⟩ b hb (ix2 p q) = _
  rw [PlainDot.matmul_zero_apply hd, broadcastTo_1b_ab_apply]

theorem plain1 : PlainDot.IsPlain dot_S2000x128_S128x128_S2000x128_1_0_0_1_n_n := ⟨rfl, rfl, rfl, rfl, rfl, rfl⟩
theorem plain2 : PlainDot.IsPlain dot_S2000x128_S128x256_S2000x256_1_0_0_1_n_n := ⟨rfl, rfl, rfl, rfl, rfl, rfl⟩
theorem plain3 : PlainDot.IsPlain dot_S2000x256_S256x256_S2000x256_1_0_0_1_n_n := ⟨rfl, rfl, rfl, rfl, rfl, rfl⟩
theorem plain4 : PlainDot.IsPlain dot_S2000x256_S256x1_S2000x1_1_0_0_1_n_n := ⟨rfl, rfl, rfl, rfl, rfl, rfl⟩

/-- One rectified layer read at row `p`, column `q` (the change of float format after it is the identity on the
    extended reals). -/
theorem relu_layer_apply {R K C : ℕ} {d : DotDims ⟨2, ![R, K]⟩ ⟨2, ![K, C]⟩ ⟨2, ![R, C]⟩} (hd : PlainDot.IsPlain d) {φ₁ φ₂ : FTy}
    (l : FVec Ideal ⟨2, ![R, K]⟩ φ₁) (r : FVec Ideal ⟨2, ![K, C]⟩ φ₂) (b : FVec Ideal ⟨2, ![1, C]⟩ .f32)
    (hb : (⟨2, ![1, C]⟩ : Shape).Broadcasts ⟨2, ![R, C]⟩) (hlt : FTy.bits .bf16 < FTy.bits .f32) (p : Fin R) (q : Fin C) :
    truncf .bf16 (maximumf (addf (matmul d none l r (constant ⟨2, ![R, C]⟩ .f32 0x00000000#32)) (broadcastTo ⟨2, ![R, C]⟩ b hb))
        (broadcast ⟨2, ![R, C]⟩ (FloatOps.ofBits .f32 0x00000000#32))) hlt (ix2 p q)
      = NodeMlp.relu ((∑ k : Fin K, l (ix2 p k) * r (ix2 k q)) + b (ix2 (0 : Fin 1) q)) := by
  show max (addf (matmul d none l r (constant ⟨2, ![R, C]⟩ .f32 0x00000000#32)) (broadcastTo ⟨2, ![R, C]⟩ b hb) (ix2 p q))
      (Ideal.ofBits .f32 0x00000000#32) = _
  rw [affine_apply hd]
  rfl

/-- The convolution layer read at row `p`, column `q`: two products into zero accumulators, the bias row added to the
    first before the second is added. -/
theorem conv_layer_apply {R K C : ℕ} {d : DotDims ⟨2, ![R, K]⟩ ⟨2, ![K, C]⟩ ⟨2, ![R, C]⟩} (hd : PlainDot.IsPlain d) {φ₁ φ₂ φ₃ φ₄ : FTy}
    (l₁ : FVec Ideal ⟨2, ![R, K]⟩ φ₁) (r₁ : FVec Ideal ⟨2, ![K, C]⟩ φ₂) (b : FVec Ideal ⟨2, ![1, C]⟩ .f32)
    (hb : (⟨2, ![1, C]⟩ : Shape).Broadcasts ⟨2, ![R, C]⟩)
    (l₂ : FVec Ideal ⟨2, ![R, K]⟩ φ₃) (r₂ : FVec Ideal ⟨2, ![K, C]⟩ φ₄) (hlt : FTy.bits .bf16 < FTy.bits .f32) (p : Fin R) (q : Fin C) :
    truncf .bf16 (addf (addf (matmul d none l₁ r₁ (constant ⟨2, ![R, C]⟩ .f32 0x00000000#32)) (broadcastTo ⟨2, ![R, C]⟩ b hb))
        (matmul d none l₂ r₂ (constant ⟨2, ![R, C]⟩ .f32 0x00000000#32))) hlt (ix2 p q)
      = (∑ k : Fin K, l₁ (ix2 p k) * r₁ (ix2 k q)) + b (ix2 (0 : Fin 1) q) + ∑ k : Fin K, l₂ (ix2 p k) * r₂ (ix2 k q) := by
  show addf (matmul d none l₁ r₁ (constant ⟨2, ![R, C]⟩ .f32 0x00000000#32)) (broadcastTo ⟨2, ![R, C]⟩ b hb) (ix2 p q)
      + FloatOps.matmul d none l₂ r₂ (constant ⟨2, ![R, C]⟩ .f32 0x00000000#32) (ix2 p q) = _
  rw [affine_apply hd, PlainDot.matmul_zero_apply hd]

/-- Row `p` of the column the body stores is the node function of row `p` of the aggregated block `x0` and of the feature
    block `x1`, with the transposed weights `x2`, `x4`, `x5`, `x7`, `x9` read as (input, output) and the bias rows
    `x3`, `x6`, `x8`, `x10` read along their one row. -/
theorem payload_apply (x0 x1 : Vec Ideal S2000x128 .bf16) (x2 : Vec Ideal S128x128 .bf16) (x3 : Vec Ideal S1x128 .f32)
    (x4 : Vec Ideal S128x128 .bf16) (x5 : Vec Ideal S128x256 .bf16) (x6 : Vec Ideal S1x256 .f32)
    (x7 : Vec Ideal S256x256 .bf16) (x8 : Vec Ideal S1x256 .f32) (x9 : Vec Ideal S256x1 .bf16) (x10 : Vec Ideal S1x1 .f32)
    (p : Fin 2000) :
    k0_pay1 (k0_pay2 x0 x2 x3 x1 x4 x5 x6 x7 x8) x9 x10 (ix2 p (0 : Fin 1))
      = NodeMlp.node (fun k => x0 (ix2 p k)) (fun k => x1 (ix2 p k)) (fun k d => x2 (ix2 k d)) (fun d => x3 (ix2 (0 : Fin 1) d))
          (fun k d => x4 (ix2 k d)) (fun d j => x5 (ix2 d j)) (fun j => x6 (ix2 (0 : Fin 1) j))
          (fun i j => x7 (ix2 i j)) (fun j => x8 (ix2 (0 : Fin 1) j)) (fun i => x9 (ix2 i (0 : Fin 1)))
          (x10 (ix2 (0 : Fin 1) (0 : Fin 1))) := by
  unfold k0_pay1 k0_pay2
  simp only [shapeCast_self]
  unfold NodeMlp.node NodeMlp.score
  refine congrArg Ideal.logistic ?_
  rw [affine_apply plain4]
  refine congrArg (· + x10 (ix2 (0 : Fin 1) (0 : Fin 1))) (Finset.sum_congr rfl fun i _ => congrArg (· * x9 (ix2 i (0 : Fin 1))) ?_)
  rw [relu_layer_apply plain3]
  unfold NodeMlp.hidden2
  refine congrArg NodeMlp.relu (congrArg (· + x8 (ix2 (0 : Fin 1) i)) (Finset.sum_congr rfl fun j _ => congrArg (· * x7 (ix2 j i)) ?_))
  rw [relu_layer_apply plain2]
  unfold NodeMlp.hidden1
  refine congrArg NodeMlp.relu (congrArg (· + x6 (ix2 (0 : Fin 1) j)) (Finset.sum_congr rfl fun d _ => congrArg (· * x5 (ix2 d j)) ?_))
  rw [conv_layer_apply plain1]
  rfl

end Cert.KernelIdeal.Row

end
-- ==== Proof.KernelAgg.lean ====
/-
  The aggregated neighbour features the kernel's call reads.

  The operations before the call gather, for each of the 640000 edges, the feature row of the edge's source node (a
  negative source index counted from the end, as array indexing does), and add each gathered row into the row of the
  edge's destination node, starting from zeros. The term is kept whole: both programs compute it by the same operations,
  so nothing about the gather or the scatter-add has to be opened.
-/
import proofs.«166283_j7052336300582_1_alg».proof.Proof.Gen.KernelIdeal.Frame
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ)

/-- The aggregated neighbour features, as the operations before the call compute them from the node features `x` and the
    edge list `e`: the rows of `x` gathered at the edges' sources (a negative source index taken from the end),
    scatter-added into a zero array at the edges' destinations. -/
def aggregated (x : FVec Ideal S10000x128 .f32) (e : IVec S2x640000 32) : FVec Ideal S10000x128 .f32 :=
  Host.scatterAdd (F := Ideal) scatter_S10000x128_S640000x1_S640000x128_1_0_0_1
    (broadcastInDim S10000x128 ![] bcast_S_S10000x128 (constant (F := Ideal) S_ .f32 0x00000000#32))
    (broadcastInDim S640000x1 ![0] bcast_S640000_S640000x1_0
      (shapeCast _ (extractStridedSlice S1x640000 ![1, 0] e slices_S2x640000_S1x640000_1_0) shapeCasts_S1x640000_S640000))
    (Host.gather gather_S10000x128_S640000x1_S640000x128_1_0_n_n_0_1_1128 x
      (broadcastInDim S640000x1 ![0] bcast_S640000_S640000x1_0
        (select
          (cmpi .slt (shapeCast _ (extractStridedSlice S1x640000 ![0, 0] e slices_S2x640000_S1x640000_0_0) shapeCasts_S1x640000_S640000)
            (broadcastInDim S640000 ![] bcast_S_S640000 (constantI S_ 32 0#32)))
          (addi (shapeCast _ (extractStridedSlice S1x640000 ![0, 0] e slices_S2x640000_S1x640000_0_0) shapeCasts_S1x640000_S640000)
            (broadcastInDim S640000 ![] bcast_S_S640000 (constantI S_ 32 10000#32)))
          (shapeCast _ (extractStridedSlice S1x640000 ![0, 0] e slices_S2x640000_S1x640000_0_0) shapeCasts_S1x640000_S640000))))

/-- A change of float format is the identity on the extended reals. -/
theorem truncf_bf16_id {s : Shape} (X : FVec Ideal s .f32) (h : FTy.bits .bf16 < FTy.bits .f32) :
    (truncf .bf16 X h : s.Idx → EReal) = X := rfl

set_option maxHeartbeats 2000000 in
/-- The aggregated-features array, as the call finds it: the aggregated features in the kernel's narrower float format. -/
theorem found_agg_fmt (c : Dev nD) : (V m c main_v14 : S10000x128.Idx → EReal)
    = truncf .bf16 (aggregated (m ((c : Thread nD τ).loc main_arg0)) (m ((c : Thread nD τ).loc main_arg1))) bitsLt_bf16_f32 := by
  dsimp only [V, hostOps0]
  after_results
  rfl

/-- On the extended reals that array is the aggregated features themselves. -/
theorem found_agg (c : Dev nD) : (V m c main_v14 : S10000x128.Idx → EReal)
    = aggregated (m ((c : Thread nD τ).loc main_arg0)) (m ((c : Thread nD τ).loc main_arg1)) :=
  (found_agg_fmt m c).trans (truncf_bf16_id _ _)

/-- The same, with the array named as its window names it. -/
theorem win_agg (c : Dev nD) : (V m c (Pipeline.arrRef spec0 0) : S10000x128.Idx → EReal)
    = aggregated (m ((c : Thread nD τ).loc main_arg0)) (m ((c : Thread nD τ).loc main_arg1)) := found_agg m c

end Cert.KernelIdeal.Whole

end
-- ==== Proof.KernelFound.lean ====
/-
  The arrays the kernel's call reads, as the operations before the call leave them.

  Apart from the aggregated features (their own module), these are the arguments re-laid: the node features as they are,
  each weight matrix transposed (so that the input feature comes first), each bias with a unit axis in front. The
  conversions to the kernel's narrower float format are the identity on the extended reals.
-/
import proofs.«166283_j7052336300582_1_alg».proof.Proof.Gen.KernelIdeal.Frame
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ)

/-! ## The arrays the call reads, as the operations before it leave them (the changes of float format are the identity
    on the extended reals) -/

theorem found_x (c : Dev nD) : (V m c main_v15 : S10000x128.Idx → EReal) = m ((c : Thread nD τ).loc main_arg0) := by
  dsimp only [V, hostOps0]; after_results; rfl
theorem found_wrel (c : Dev nD) : (V m c main_v17 : S128x128.Idx → EReal)
    = transpose S128x128 [1, 0] (m ((c : Thread nD τ).loc main_arg2)) transposes_S128x128_S128x128_1_0 := by
  dsimp only [V, hostOps0]; after_results; rfl
theorem found_brel (c : Dev nD) : (V m c main_v26 : S1x128.Idx → EReal)
    = shapeCast S1x128 (m ((c : Thread nD τ).loc main_arg3)) shapeCasts_S128_S1x128 := by
  dsimp only [V, hostOps0]; after_results; rfl
theorem found_wroot (c : Dev nD) : (V m c main_v19 : S128x128.Idx → EReal)
    = transpose S128x128 [1, 0] (m ((c : Thread nD τ).loc main_arg4)) transposes_S128x128_S128x128_1_0 := by
  dsimp only [V, hostOps0]; after_results; rfl
theorem found_w1 (c : Dev nD) : (V m c main_v21 : S128x256.Idx → EReal)
    = transpose S128x256 [1, 0] (m ((c : Thread nD τ).loc main_arg5)) transposes_S256x128_S128x256_1_0 := by
  dsimp only [V, hostOps0]; after_results; rfl
theorem found_b1 (c : Dev nD) : (V m c main_v27 : S1x256.Idx → EReal)
    = shapeCast S1x256 (m ((c : Thread nD τ).loc main_arg6)) shapeCasts_S256_S1x256 := by
  dsimp only [V, hostOps0]; after_results; rfl
theorem found_w2 (c : Dev nD) : (V m c main_v23 : S256x256.Idx → EReal)
    = transpose S256x256 [1, 0] (m ((c : Thread nD τ).loc main_arg7)) transposes_S256x256_S256x256_1_0 := by
  dsimp only [V, hostOps0]; after_results; rfl
theorem found_b2 (c : Dev nD) : (V m c main_v28 : S1x256.Idx → EReal)
    = shapeCast S1x256 (m ((c : Thread nD τ).loc main_arg8)) shapeCasts_S256_S1x256 := by
  dsimp only [V, hostOps0]; after_results; rfl
theorem found_w3 (c : Dev nD) : (V m c main_v25 : S256x1.Idx → EReal)
    = transpose S256x1 [1, 0] (m ((c : Thread nD τ).loc main_arg9)) transposes_S1x256_S256x1_1_0 := by
  dsimp only [V, hostOps0]; after_results; rfl
theorem found_b3 (c : Dev nD) : (V m c main_v29 : S1x1.Idx → EReal)
    = shapeCast S1x1 (m ((c : Thread nD τ).loc main_arg10)) shapeCasts_S1_S1x1 := by
  dsimp only [V, hostOps0]; after_results; rfl

/-! The same, with each array named as its window names it. -/

theorem win_x (c : Dev nD) : (V m c (Pipeline.arrRef spec0 1) : S10000x128.Idx → EReal) = m ((c : Thread nD τ).loc main_arg0) := found_x m c
theorem win_wrel (c : Dev nD) : (V m c (Pipeline.arrRef spec0 2) : S128x128.Idx → EReal)
    = transpose S128x128 [1, 0] (m ((c : Thread nD τ).loc main_arg2)) transposes_S128x128_S128x128_1_0 := found_wrel m c
theorem win_brel (c : Dev nD) : (V m c (Pipeline.arrRef spec0 3) : S1x128.Idx → EReal)
    = shapeCast S1x128 (m ((c : Thread nD τ).loc main_arg3)) shapeCasts_S128_S1x128 := found_brel m c
theorem win_wroot (c : Dev nD) : (V m c (Pipeline.arrRef spec0 4) : S128x128.Idx → EReal)
    = transpose S128x128 [1, 0] (m ((c : Thread nD τ).loc main_arg4)) transposes_S128x128_S128x128_1_0 := found_wroot m c
theorem win_w1 (c : Dev nD) : (V m c (Pipeline.arrRef spec0 5) : S128x256.Idx → EReal)
    = transpose S128x256 [1, 0] (m ((c : Thread nD τ).loc main_arg5)) transposes_S256x128_S128x256_1_0 := found_w1 m c
theorem win_b1 (c : Dev nD) : (V m c (Pipeline.arrRef spec0 6) : S1x256.Idx → EReal)
    = shapeCast S1x256 (m ((c : Thread nD τ).loc main_arg6)) shapeCasts_S256_S1x256 := found_b1 m c
theorem win_w2 (c : Dev nD) : (V m c (Pipeline.arrRef spec0 7) : S256x256.Idx → EReal)
    = transpose S256x256 [1, 0] (m ((c : Thread nD τ).loc main_arg7)) transposes_S256x256_S256x256_1_0 := found_w2 m c
theorem win_b2 (c : Dev nD) : (V m c (Pipeline.arrRef spec0 8) : S1x256.Idx → EReal)
    = shapeCast S1x256 (m ((c : Thread nD τ).loc main_arg8)) shapeCasts_S256_S1x256 := found_b2 m c
theorem win_w3 (c : Dev nD) : (V m c (Pipeline.arrRef spec0 9) : S256x1.Idx → EReal)
    = transpose S256x1 [1, 0] (m ((c : Thread nD τ).loc main_arg9)) transposes_S1x256_S256x1_1_0 := found_w3 m c
theorem win_b3 (c : Dev nD) : (V m c (Pipeline.arrRef spec0 10) : S1x1.Idx → EReal)
    = shapeCast S1x1 (m ((c : Thread nD τ).loc main_arg10)) shapeCasts_S1_S1x1 := found_b3 m c

end Cert.KernelIdeal.Whole

end
-- ==== Proof.KernelValue.lean ====
/-
  The kernel's result array, whole, on the extended reals.

  The kernel walks the 10000 nodes in five blocks of 2000 rows. At grid point `t` it reads rows `2000 t … 2000 t + 1999`
  of the aggregated features and of the node features, and the whole of every weight matrix and bias row; it writes rows
  `2000 t … 2000 t + 1999` of the one-column result. The arrays the kernel reads are made by the operations before the call:
  the aggregated features are a scatter-add of gathered rows (kept whole here, as one term of the two arguments it depends
  on), the weights are the arguments transposed, the biases are the arguments with a unit axis added; the changes of float
  format are the identity on the extended reals. Row `p` of the block written at point `t` is the node function of node
  `2000 t + p` (the payload lemma, with each block read where it lies in its array), the five blocks cover the result, so
  the result array ends as `NodeMlp.out` of the aggregated features and the arguments.
-/
import proofs.«166283_j7052336300582_1_alg».proof.Proof.Gen.KernelIdeal.Value
import proofs.«166283_j7052336300582_1_alg».proof.Proof.KernelRow
import proofs.«166283_j7052336300582_1_alg».proof.Proof.KernelAgg
import proofs.«166283_j7052336300582_1_alg».proof.Proof.KernelFound
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array the kernel is shown to leave: `NodeMlp.out` of the aggregated features and the arguments. -/
abbrev result (c : Dev nD) : Buf (Elt Ideal) ((c : Thread nD τ).loc main_v30) :=
  NodeMlp.out (aggregated (m ((c : Thread nD τ).loc main_arg0)) (m ((c : Thread nD τ).loc main_arg1)))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-! ## Where each block lies in its array -/

/-- The node a block row stands for: row `p` of the block at grid point `t` is node `2000 t + p`. -/
def rowOf (t : Fin cfg0.N) (p : Fin 2000) : Fin 10000 :=
  ⟨2000 * t.val + p.val, by have := t.isLt; have hN : cfg0.N = 5 := N_0; have := p.isLt; omega⟩

/-- The two feature windows and the result window move down one block of rows per grid point (decided over the five
    points). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The weight and bias windows stay on their array's one block (decided over the five points). -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- A window's block at a point is its array, as the call finds it, read through the block. -/
theorem iblk_def (c : Dev nD) (w : Fin cfg0.W) (t : Fin cfg0.N) :
    iblk m c w t = ((cfg0.win w).blk t).view.read (Elt Ideal) (V m c (Pipeline.arrRef spec0 w)) := rfl

/-- Row `p` of the aggregated-features block at point `t` is row `2000 t + p` of the array. -/
theorem emb_agg (t : Fin cfg0.N) (p : Fin 2000) (k : Fin 128) :
    ((cfg0.win 0).blk t).view.emb (ix2 p k) = (ix2 (rowOf t p) k : S10000x128.Idx) := by
  obtain ⟨e0, e1, -⟩ := idx_rows t
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem read_agg (c : Dev nD) (t : Fin cfg0.N) (X : Buf (Elt Ideal) ((c : Thread nD τ).loc (Pipeline.arrRef spec0 0)))
    (p : Fin 2000) (k : Fin 128) :
    ((cfg0.win 0).blk t).view.read (Elt Ideal) X (ix2 p k) = (X : S10000x128.Idx → EReal) (ix2 (rowOf t p) k) :=
  congrArg (X : S10000x128.Idx → EReal) (emb_agg t p k)

/-- Row `p` of the node-features block at point `t` is row `2000 t + p` of the array. -/
theorem emb_x (t : Fin cfg0.N) (p : Fin 2000) (k : Fin 128) :
    ((cfg0.win 1).blk t).view.emb (ix2 p k) = (ix2 (rowOf t p) k : S10000x128.Idx) := by
  obtain ⟨-, -, e0, e1, -⟩ := idx_rows t
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

theorem read_x (c : Dev nD) (t : Fin cfg0.N) (X : Buf (Elt Ideal) ((c : Thread nD τ).loc (Pipeline.arrRef spec0 1)))
    (p : Fin 2000) (k : Fin 128) :
    ((cfg0.win 1).blk t).view.read (Elt Ideal) X (ix2 p k) = (X : S10000x128.Idx → EReal) (ix2 (rowOf t p) k) :=
  congrArg (X : S10000x128.Idx → EReal) (emb_x t p k)

/-- The block of the first convolution weight is its whole array, at every point. -/
theorem emb_wrel (t : Fin cfg0.N) (y : S128x128.Idx) : ((cfg0.win 2).blk t).view.emb y = y := by
  obtain ⟨e0, e1, -⟩ := idx_whole t
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem read_wrel (c : Dev nD) (t : Fin cfg0.N) (X : Buf (Elt Ideal) ((c : Thread nD τ).loc (Pipeline.arrRef spec0 2))) :
    ((cfg0.win 2).blk t).view.read (Elt Ideal) X = (X : S128x128.Idx → EReal) :=
  funext fun y => congrArg (X : S128x128.Idx → EReal) (emb_wrel t y)

/-- The block of the convolution's bias row is its whole array. -/
theorem emb_brel (t : Fin cfg0.N) (y : S1x128.Idx) : ((cfg0.win 3).blk t).view.emb y = y := by
  obtain ⟨-, -, e0, e1, -⟩ := idx_whole t
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem read_brel (c : Dev nD) (t : Fin cfg0.N) (X : Buf (Elt Ideal) ((c : Thread nD τ).loc (Pipeline.arrRef spec0 3))) :
    ((cfg0.win 3).blk t).view.read (Elt Ideal) X = (X : S1x128.Idx → EReal) :=
  funext fun y => congrArg (X : S1x128.Idx → EReal) (emb_brel t y)

/-- The block of the second convolution weight is its whole array. -/
theorem emb_wroot (t : Fin cfg0.N) (y : S128x128.Idx) : ((cfg0.win 4).blk t).view.emb y = y := by
  obtain ⟨-, -, -, -, e0, e1, -⟩ := idx_whole t
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem read_wroot (c : Dev nD) (t : Fin cfg0.N) (X : Buf (Elt Ideal) ((c : Thread nD τ).loc (Pipeline.arrRef spec0 4))) :
    ((cfg0.win 4).blk t).view.read (Elt Ideal) X = (X : S128x128.Idx → EReal) :=
  funext fun y => congrArg (X : S128x128.Idx → EReal) (emb_wroot t y)

/-- The block of the first layer's weight is its whole array. -/
theorem emb_w1 (t : Fin cfg0.N) (y : S128x256.Idx) : ((cfg0.win 5).blk t).view.emb y = y := by
  obtain ⟨-, -, -, -, -, -, e0, e1, -⟩ := idx_whole t
  funext a
  apply Fin.ext
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega

theorem read_w1 (c : Dev nD) (t : Fin cfg0.N) (X : Buf (Elt Ideal) ((c : Thread nD τ).loc (Pipeline.arrRef spec0 5))) :
    ((cfg0.win 5).blk t).view.read (Elt Ideal) X = (X : S128x256.Idx → EReal) :=
  funext fun y => congrArg (X : S128x256.Idx → EReal) (emb_w1 t y)

/-- The block of the first layer's bias row is its whole array. -/
theorem emb_b1 (t : Fin cfg0.N) (y : S1x256.Idx) : ((cfg0.win 6).blk t).view.emb y = y := by
  obtain ⟨-, -, -, -, -, -, -, -, e0, e1, -⟩ := idx_whole t
  funext a
  apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

theorem read_b1 (c : Dev nD) (t : Fin cfg0.N) (X : Buf (Elt Ideal) ((c : Thread nD τ).loc (Pipeline.arrRef spec0 6))) :
    ((cfg0.win 6).blk t).view.read (Elt Ideal) X = (X : S1x256.Idx → EReal) :=
  funext fun y => congrArg (X : S1x256.Idx → EReal) (emb_b1 t y)

/-- The block of the second layer's weight is its whole array. -/
theorem emb_w2 (t : Fin cfg0.N) (y : S256x256.Idx) : ((cfg0.win 7).blk t).view.emb y = y := by
  obtain ⟨-, -, -, -, -, -, -, -, -, -, e0, e1, -⟩ := idx_whole t
  funext a
  apply Fin.ext
  match a with
  | ⟨0, _⟩ => show win0_7.index t (0 : Fin 2) * 256 + 1 * (y 0).val = (y 0).val; rw [e0]; omega
  | ⟨1, _⟩ => show win0_7.index t (1 : Fin 2) * 256 + 1 * (y 1).val = (y 1).val; rw [e1]; omega

theorem read_w2 (c : Dev nD) (t : Fin cfg0.N) (X : Buf (Elt Ideal) ((c : Thread nD τ).loc (Pipeline.arrRef spec0 7))) :
    ((cfg0.win 7).blk t).view.read (Elt Ideal) X = (X : S256x256.Idx → EReal) :=
  funext fun y => congrArg (X : S256x256.Idx → EReal) (emb_w2 t y)

/-- The block of the second layer's bias row is its whole array. -/
theorem emb_b2 (t : Fin cfg0.N) (y : S1x256.Idx) : ((cfg0.win 8).blk t).view.emb y = y := by
  obtain ⟨-, -, -, -, -, -, -, -, -, -, -, -, e0, e1, -⟩ := idx_whole t
  funext a
  apply Fin.ext
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

theorem read_b2 (c : Dev nD) (t : Fin cfg0.N) (X : Buf (Elt Ideal) ((c : Thread nD τ).loc (Pipeline.arrRef spec0 8))) :
    ((cfg0.win 8).blk t).view.read (Elt Ideal) X = (X : S1x256.Idx → EReal) :=
  funext fun y => congrArg (X : S1x256.Idx → EReal) (emb_b2 t y)

/-- The block of the output layer's weight is its whole array. -/
theorem emb_w3 (t : Fin cfg0.N) (y : S256x1.Idx) : ((cfg0.win 9).blk t).view.emb y = y := by
  obtain ⟨-, -, -, -, -, -, -, -, -, -, -, -, -, -, e0, e1, -⟩ := idx_whole t
  funext a
  apply Fin.ext
  match a with
  | ⟨0, _⟩ => show win0_9.index t (0 : Fin 2) * 256 + 1 * (y 0).val = (y 0).val; rw [e0]; omega
  | ⟨1, _⟩ => show win0_9.index t (1 : Fin 2) * 1 + 1 * (y 1).val = (y 1).val; rw [e1]; omega

theorem read_w3 (c : Dev nD) (t : Fin cfg0.N) (X : Buf (Elt Ideal) ((c : Thread nD τ).loc (Pipeline.arrRef spec0 9))) :
    ((cfg0.win 9).blk t).view.read (Elt Ideal) X = (X : S256x1.Idx → EReal) :=
  funext fun y => congrArg (X : S256x1.Idx → EReal) (emb_w3 t y)

/-- The block of the output layer's bias is its whole array. -/
theorem emb_b3 (t : Fin cfg0.N) (y : S1x1.Idx) : ((cfg0.win 10).blk t).view.emb y = y := by
  obtain ⟨-, -, -, -, -, -, -, -, -, -, -, -, -, -, -, -, e0, e1⟩ := idx_whole t
  funext a
  apply Fin.ext
  match a with
  | ⟨0, _⟩ => show win0_10.index t (0 : Fin 2) * 1 + 1 * (y 0).val = (y 0).val; rw [e0]; omega
  | ⟨1, _⟩ => show win0_10.index t (1 : Fin 2) * 1 + 1 * (y 1).val = (y 1).val; rw [e1]; omega

theorem read_b3 (c : Dev nD) (t : Fin cfg0.N) (X : Buf (Elt Ideal) ((c : Thread nD τ).loc (Pipeline.arrRef spec0 10))) :
    ((cfg0.win 10).blk t).view.read (Elt Ideal) X = (X : S1x1.Idx → EReal) :=
  funext fun y => congrArg (X : S1x1.Idx → EReal) (emb_b3 t y)

/-! ## Each block, read in terms of the arguments -/

theorem agg_row (c : Dev nD) (t : Fin cfg0.N) (p : Fin 2000) (k : Fin 128) :
    (iblk m c 0 t : Vec Ideal S2000x128 .bf16) (ix2 p k)
      = aggregated (m ((c : Thread nD τ).loc main_arg0)) (m ((c : Thread nD τ).loc main_arg1)) (ix2 (rowOf t p) k) := by
  rw [iblk_def, win_agg]
  exact read_agg c t _ p k

theorem x_row (c : Dev nD) (t : Fin cfg0.N) (p : Fin 2000) (k : Fin 128) :
    (iblk m c 1 t : Vec Ideal S2000x128 .bf16) (ix2 p k)
      = (m ((c : Thread nD τ).loc main_arg0) : S10000x128.Idx → EReal) (ix2 (rowOf t p) k) := by
  rw [iblk_def, win_x]
  exact read_x c t _ p k

theorem whole_wrel (c : Dev nD) (t : Fin cfg0.N) : (iblk m c 2 t : Vec Ideal S128x128 .bf16)
    = transpose S128x128 [1, 0] (m ((c : Thread nD τ).loc main_arg2)) transposes_S128x128_S128x128_1_0 := by
  rw [iblk_def, win_wrel]
  exact read_wrel c t _

theorem whole_brel (c : Dev nD) (t : Fin cfg0.N) : (iblk m c 3 t : Vec Ideal S1x128 .f32)
    = shapeCast S1x128 (m ((c : Thread nD τ).loc main_arg3)) shapeCasts_S128_S1x128 := by
  rw [iblk_def, win_brel]
  exact read_brel c t _

theorem whole_wroot (c : Dev nD) (t : Fin cfg0.N) : (iblk m c 4 t : Vec Ideal S128x128 .bf16)
    = transpose S128x128 [1, 0] (m ((c : Thread nD τ).loc main_arg4)) transposes_S128x128_S128x128_1_0 := by
  rw [iblk_def, win_wroot]
  exact read_wroot c t _

theorem whole_w1 (c : Dev nD) (t : Fin cfg0.N) : (iblk m c 5 t : Vec Ideal S128x256 .bf16)
    = transpose S128x256 [1, 0] (m ((c : Thread nD τ).loc main_arg5)) transposes_S256x128_S128x256_1_0 := by
  rw [iblk_def, win_w1]
  exact read_w1 c t _

theorem whole_b1 (c : Dev nD) (t : Fin cfg0.N) : (iblk m c 6 t : Vec Ideal S1x256 .f32)
    = shapeCast S1x256 (m ((c : Thread nD τ).loc main_arg6)) shapeCasts_S256_S1x256 := by
  rw [iblk_def, win_b1]
  exact read_b1 c t _

theorem whole_w2 (c : Dev nD) (t : Fin cfg0.N) : (iblk m c 7 t : Vec Ideal S256x256 .bf16)
    = transpose S256x256 [1, 0] (m ((c : Thread nD τ).loc main_arg7)) transposes_S256x256_S256x256_1_0 := by
  rw [iblk_def, win_w2]
  exact read_w2 c t _

theorem whole_b2 (c : Dev nD) (t : Fin cfg0.N) : (iblk m c 8 t : Vec Ideal S1x256 .f32)
    = shapeCast S1x256 (m ((c : Thread nD τ).loc main_arg8)) shapeCasts_S256_S1x256 := by
  rw [iblk_def, win_b2]
  exact read_b2 c t _

theorem whole_w3 (c : Dev nD) (t : Fin cfg0.N) : (iblk m c 9 t : Vec Ideal S256x1 .bf16)
    = transpose S256x1 [1, 0] (m ((c : Thread nD τ).loc main_arg9)) transposes_S1x256_S256x1_1_0 := by
  rw [iblk_def, win_w3]
  exact read_w3 c t _

theorem whole_b3 (c : Dev nD) (t : Fin cfg0.N) : (iblk m c 10 t : Vec Ideal S1x1 .f32)
    = shapeCast S1x1 (m ((c : Thread nD τ).loc main_arg10)) shapeCasts_S1_S1x1 := by
  rw [iblk_def, win_b3]
  exact read_b3 c t _

/-! ## What each point writes, the cover, and the run -/

theorem hz : (![0, 0] : Fin 2 → Nat) = fun _ => 0 := funext fun a => by fin_cases a <;> rfl

/-- The result window's block at point `t`, read at row `p`, is node `2000 t + p` of the result array. -/
theorem out_row (t : Fin cfg0.N) (p : Fin 2000) :
    ((cfg0.win 11).blk t).view.emb (ix2 p (0 : Fin 1)) = (ix2 (rowOf t p) (0 : Fin 1) : S10000x1.Idx) := by
  obtain ⟨-, -, -, -, e0, e1⟩ := idx_rows t
  funext a
  apply Fin.ext
  match a with
  | ⟨0, _⟩ => show win0_11.index t (0 : Fin 2) * 2000 + 1 * p.val = 2000 * t.val + p.val; rw [e0]; omega
  | ⟨1, _⟩ => show win0_11.index t (1 : Fin 2) * 1 + 1 * 0 = 0; rw [e1]

/-- What point `t` writes at row `p`, read against any array `R` of the result's shape: the stored column `P` at row
    `p` beside `R` at node `2000 t + p` (the result window is not clipped, so the stored column is written back whole). -/
theorem point_eq (c : Dev nD) (t : Fin cfg0.N) (p : Fin 2000) (P : Vec Ideal S2000x1 .f32)
    (R : Buf (Elt Ideal) ((c : Thread nD τ).loc main_v30))
    (h : P (ix2 p (0 : Fin 1)) = (R : S10000x1.Idx → EReal) (ix2 (rowOf t p) (0 : Fin 1))) :
    (cfg0.win 11).cut (grid0.coords t) P (ix2 p (0 : Fin 1))
      = ((cfg0.win 11).blk t).view.read (Elt Ideal) R (ix2 p (0 : Fin 1)) := by
  show P (ix2 p (0 : Fin 1)) = (R : S10000x1.Idx → EReal) (((cfg0.win 11).blk t).view.emb (ix2 p (0 : Fin 1)))
  rw [out_row t p]
  exact h

/-- What point `t` writes back is block `t` of the result array: row `p` of the stored column is the node function of
    row `p` of the blocks (the payload lemma), each block read where it lies in its array, each array as the operations
    before the call left it — the weights transposed, the biases with their unit axis. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz]
  simp only [View.ld_unit_zero (S := S2000x128) hz, View.ld_unit_zero (S := S128x128) hz, View.ld_unit_zero (S := S1x128) hz,
    View.ld_unit_zero (S := S128x256) hz, View.ld_unit_zero (S := S1x256) hz, View.ld_unit_zero (S := S256x256) hz,
    View.ld_unit_zero (S := S256x1) hz, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  refine point_eq c t p _ (result m c) ?_
  unfold result
  rw [NodeMlp.out_apply]
  refine (Row.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p).trans ?_
  simp only [agg_row m c t p, x_row m c t p]
  rw [whole_wrel m c t, whole_brel m c t, whole_wroot m c t, whole_w1 m c t, whole_b1 m c t, whole_w2 m c t,
    whole_b2 m c t, whole_w3 m c t, whole_b3 m c t]
  simp only [shapeCast_a_1a_apply]
  have t2 : ∀ k d : Fin 128, transpose S128x128 [1, 0] (m ((c : Thread nD τ).loc main_arg2)) transposes_S128x128_S128x128_1_0 (ix2 k d)
      = (m ((c : Thread nD τ).loc main_arg2) : S128x128.Idx → EReal) (ix2 d k) := fun k d => transpose_ix2_apply _ _ k d
  have t4 : ∀ k d : Fin 128, transpose S128x128 [1, 0] (m ((c : Thread nD τ).loc main_arg4)) transposes_S128x128_S128x128_1_0 (ix2 k d)
      = (m ((c : Thread nD τ).loc main_arg4) : S128x128.Idx → EReal) (ix2 d k) := fun k d => transpose_ix2_apply _ _ k d
  have t5 : ∀ (d : Fin 128) (j : Fin 256), transpose S128x256 [1, 0] (m ((c : Thread nD τ).loc main_arg5)) transposes_S256x128_S128x256_1_0 (ix2 d j)
      = (m ((c : Thread nD τ).loc main_arg5) : S256x128.Idx → EReal) (ix2 j d) := fun d j => transpose_ix2_apply _ _ d j
  have t7 : ∀ i j : Fin 256, transpose S256x256 [1, 0] (m ((c : Thread nD τ).loc main_arg7)) transposes_S256x256_S256x256_1_0 (ix2 i j)
      = (m ((c : Thread nD τ).loc main_arg7) : S256x256.Idx → EReal) (ix2 j i) := fun i j => transpose_ix2_apply _ _ i j
  have t9 : ∀ i : Fin 256, transpose S256x1 [1, 0] (m ((c : Thread nD τ).loc main_arg9)) transposes_S1x256_S256x1_1_0 (ix2 i (0 : Fin 1))
      = (m ((c : Thread nD τ).loc main_arg9) : S1x256.Idx → EReal) (ix2 (0 : Fin 1) i) := fun i => transpose_ix2_apply _ _ i 0
  simp only [t2, t4, t5, t7, t9]

/-- An index of the result array is in point `t`'s block iff each coordinate is in the block's range on its axis. -/
theorem mem_blk (t : Fin cfg0.N) (i : S10000x1.Idx) :
    i ∈ ((cfg0.win 11).blk t).view.set ↔ ∀ a : Fin 2, win0_11.index t a * S2000x1.size a ≤ (i a).val
      ∧ (i a).val < win0_11.index t a * S2000x1.size a + S2000x1.size a := by
  show i ∈ ((View.whole main_v30).slice (win0_11.rect t)).set ↔ _
  rw [View.set_slice_whole, Rect.mem_set_unit]
  exact Iff.rfl

/-- The five blocks cover the result array: node `n` is in the block of point `n / 2000`. -/
theorem cover (i : S10000x1.Idx) :
    ∃ t : Fin cfg0.N, (cfg0.win 11).flush t = true ∧ i ∈ ((cfg0.win 11).blk t).view.set := by
  have hN : cfg0.N = 5 := N_0
  have hi0 : (i 0).val < 10000 := (i 0).isLt
  have hi1 : (i 1).val < 1 := (i 1).isLt
  have ht : (i 0).val / 2000 < cfg0.N := by omega
  obtain ⟨-, -, -, -, e0, e1⟩ := idx_rows ⟨(i 0).val / 2000, ht⟩
  refine ⟨⟨(i 0).val / 2000, ht⟩, flush0_11 _, ?_⟩
  rw [mem_blk]
  intro a
  match a with
  | ⟨0, _⟩ =>
    show win0_11.index ⟨(i 0).val / 2000, ht⟩ (0 : Fin 2) * 2000 ≤ (i 0).val
      ∧ (i 0).val < win0_11.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_11.index ⟨(i 0).val / 2000, ht⟩ (1 : Fin 2) * 1 ≤ (i 1).val
      ∧ (i 1).val < win0_11.index ⟨(i 0).val / 2000, ht⟩ (1 : Fin 2) * 1 + 1
    rw [e1]
    omega

/-- After the run the result array is `result`: every point writes its block of it, and the blocks cover it. -/
theorem final (c : Dev nD) : (dats m 0 c).arrAt 11 cfg0.N = result m c :=
  (dats m 0 c).arrAt_eq_of_cover 11 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.RefRow.lean ====
/-
  What the reference computes for one node, on the extended reals.

  The reference forms the aggregated features of all 10000 nodes, then applies the convolution and the three layers to
  the whole arrays. Read at row `p`, every stage depends only on row `p` of the stage before it: each `dot_general`
  is the plain sum over the shared axis with the weight matrix read transposed, each bias is read at its column, and
  the closing `1 / (1 + e^(-s))` is the logistic function. So the last stage at row `p` is the node function
  `NodeMlp.node` of row `p` of the aggregated features and of the node features.
-/
import proofs.«166283_j7052336300582_1_alg».proof.Proof.Gen.ReferenceIdeal.Read
import proofs.«166283_j7052336300582_1_alg».proof.Proof.Spec

noncomputable section

namespace Cert.ReferenceIdeal.Row

open Cert.ReferenceIdeal Cert.ReferenceIdeal.Gen Cert.ReferenceIdeal.Read Idealize.ShloMosaic Idealize.ShloMosaic.ValueIdx

/-! ## The stages' index functions at `(p, q)`: the left operand's row `p`, the transposed weight's (output, input)
    entry, the bias' entry -/

theorem l15 (p : Fin 10000) (d k : Fin 128) : lidx_main_v15 (ix2 p d) k = ix2 p k := funext fun a => Fin.ext (by match a with | ⟨0, _⟩ => rfl | ⟨1, _⟩ => rfl)
theorem r15 (p : Fin 10000) (d k : Fin 128) : idx_main_v14 (ridx_main_v15 (ix2 p d) k) = ix2 d k := funext fun a => Fin.ext (by match a with | ⟨0, _⟩ => rfl | ⟨1, _⟩ => rfl)
theorem b17 (p : Fin 10000) (d : Fin 128) : idx_main_v16 (idx_main_v17 (ix2 p d)) = ix1 d := funext fun a => Fin.ext (by match a with | ⟨0, _⟩ => rfl)
theorem l20 (p : Fin 10000) (d k : Fin 128) : lidx_main_v20 (ix2 p d) k = ix2 p k := funext fun a => Fin.ext (by match a with | ⟨0, _⟩ => rfl | ⟨1, _⟩ => rfl)
theorem r20 (p : Fin 10000) (d k : Fin 128) : idx_main_v19 (ridx_main_v20 (ix2 p d) k) = ix2 d k := funext fun a => Fin.ext (by match a with | ⟨0, _⟩ => rfl | ⟨1, _⟩ => rfl)
theorem l23 (p : Fin 10000) (j : Fin 256) (d : Fin 128) : lidx_main_v23 (ix2 p j) d = ix2 p d := funext fun a => Fin.ext (by match a with | ⟨0, _⟩ => rfl | ⟨1, _⟩ => rfl)
theorem r23 (p : Fin 10000) (j : Fin 256) (d : Fin 128) : idx_main_v22 (ridx_main_v23 (ix2 p j) d) = ix2 j d := funext fun a => Fin.ext (by match a with | ⟨0, _⟩ => rfl | ⟨1, _⟩ => rfl)
theorem b25 (p : Fin 10000) (j : Fin 256) : idx_main_v24 (idx_main_v25 (ix2 p j)) = ix1 j := funext fun a => Fin.ext (by match a with | ⟨0, _⟩ => rfl)
theorem l29 (p : Fin 10000) (j i : Fin 256) : lidx_main_v29 (ix2 p j) i = ix2 p i := funext fun a => Fin.ext (by match a with | ⟨0, _⟩ => rfl | ⟨1, _⟩ => rfl)
theorem r29 (p : Fin 10000) (j i : Fin 256) : idx_main_v28 (ridx_main_v29 (ix2 p j) i) = ix2 j i := funext fun a => Fin.ext (by match a with | ⟨0, _⟩ => rfl | ⟨1, _⟩ => rfl)
theorem b31 (p : Fin 10000) (j : Fin 256) : idx_main_v30 (idx_main_v31 (ix2 p j)) = ix1 j := funext fun a => Fin.ext (by match a with | ⟨0, _⟩ => rfl)
theorem l35 (p : Fin 10000) (i : Fin 256) : lidx_main_v35 (ix2 p (0 : Fin 1)) i = ix2 p i := funext fun a => Fin.ext (by match a with | ⟨0, _⟩ => rfl | ⟨1, _⟩ => rfl)
theorem r35 (p : Fin 10000) (i : Fin 256) : idx_main_v34 (ridx_main_v35 (ix2 p (0 : Fin 1)) i) = ix2 (0 : Fin 1) i := funext fun a => Fin.ext (by match a with | ⟨0, _⟩ => rfl | ⟨1, _⟩ => rfl)
theorem b37 (p : Fin 10000) : idx_main_v36 (idx_main_v37 (ix2 p (0 : Fin 1))) = ix1 (0 : Fin 1) := funext fun a => Fin.ext (by match a with | ⟨0, _⟩ => rfl)

variable (x0 : (⟨S10000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S256x128, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S1x256, .f32⟩ : BufTy).Contents (Elt Ideal))
  (x10 : (⟨S1, .f32⟩ : BufTy).Contents (Elt Ideal))

/-! ## The stages at a row -/

/-- The convolution stage at row `p`, feature `d`. -/
theorem conv_apply (p : Fin 10000) (d : Fin 128) :
    val_main_v21 (F := Ideal) x0 x1 x2 x3 x4 (ix2 p d)
      = NodeMlp.conv (fun k => val_main_v13 (F := Ideal) x0 x1 (ix2 p k)) (fun k => x0 (ix2 p k))
          (fun k d => x2 (ix2 d k)) (fun d => x3 (ix1 d)) (fun k d => x4 (ix2 d k)) d := by
  rw [val_main_v21_apply, val_main_v18_apply, val_main_v15_apply, val_main_v17_apply, val_main_v16_apply, val_main_v20_apply]
  simp only [val_main_v14_apply, val_main_v19_apply, l15, r15, b17, l20, r20]
  rfl

/-- The first hidden layer's stage at row `p`, unit `j`. -/
theorem hidden1_apply (p : Fin 10000) (j : Fin 256) :
    val_main_v27 (F := Ideal) x0 x1 x2 x3 x4 x5 x6 (ix2 p j)
      = NodeMlp.hidden1 (fun d => val_main_v21 (F := Ideal) x0 x1 x2 x3 x4 (ix2 p d)) (fun d j => x5 (ix2 j d)) (fun j => x6 (ix1 j)) j := by
  rw [val_main_v27_apply, val_main_v26_apply, val_main_v23_apply, val_main_v25_apply, val_main_v24_apply,
    val_main_call0_v0_apply, val_main_call0_cst_apply]
  simp only [val_main_v22_apply, l23, r23, b25]
  rfl

/-- The second hidden layer's stage at row `p`, unit `j`. -/
theorem hidden2_apply (p : Fin 10000) (j : Fin 256) :
    val_main_v33 (F := Ideal) x0 x1 x2 x3 x4 x5 x6 x7 x8 (ix2 p j)
      = NodeMlp.hidden2 (fun i => val_main_v27 (F := Ideal) x0 x1 x2 x3 x4 x5 x6 (ix2 p i)) (fun i j => x7 (ix2 j i)) (fun j => x8 (ix1 j)) j := by
  rw [val_main_v33_apply, val_main_v32_apply, val_main_v29_apply, val_main_v31_apply, val_main_v30_apply,
    val_main_call1_v0_apply, val_main_call1_cst_apply]
  simp only [val_main_v28_apply, l29, r29, b31]
  rfl

/-- The output layer's stage at row `p`. -/
theorem score_apply (p : Fin 10000) :
    val_main_v38 (F := Ideal) x0 x1 x2 x3 x4 x5 x6 x7 x8 x9 x10 (ix2 p (0 : Fin 1))
      = NodeMlp.score (fun i => val_main_v33 (F := Ideal) x0 x1 x2 x3 x4 x5 x6 x7 x8 (ix2 p i)) (fun i => x9 (ix2 (0 : Fin 1) i)) (x10 (ix1 (0 : Fin 1))) := by
  rw [val_main_v38_apply, val_main_v35_apply, val_main_v37_apply, val_main_v36_apply]
  simp only [val_main_v34_apply, l35, r35, b37]
  rfl

/-- The last stage is the whole result array `NodeMlp.out` of the aggregated features (the scatter stage, kept whole) and
    the arguments. -/
theorem result_eq :
    val_main_v44 (F := Ideal) x0 x1 x2 x3 x4 x5 x6 x7 x8 x9 x10
      = NodeMlp.out (val_main_v13 (F := Ideal) x0 x1) x0 x2 x3 x4 x5 x6 x7 x8 x9 x10 := by
  funext i
  obtain ⟨p, q, rfl⟩ : ∃ (p : Fin 10000) (q : Fin 1), i = ix2 p q := ⟨i 0, i 1, eq_ix2 i⟩
  obtain rfl : q = 0 := Subsingleton.elim _ _
  rw [val_main_v44_apply, val_main_v43_apply, val_main_cst_2_apply, val_main_v42_apply, val_main_v41_apply,
    val_main_cst_1_apply, val_main_v40_apply, val_main_v39_apply, score_apply]
  rw [NodeMlp.out_apply]
  unfold NodeMlp.node
  simp only [hidden2_apply, hidden1_apply, conv_apply]
  simp only [Ideal.hostDivf_def, Ideal.addf_def, Ideal.hostUnary_exp_def, Ideal.hostNegf_def, Ideal.negf_def, Ideal.ofBits_def]
  exact NodeMlp.logistic_words _

end Cert.ReferenceIdeal.Row

end
-- ==== Proof.lean ====
/-
  The kernel computes, for each of 10000 graph nodes, a graph convolution of the node's own features and the sum of its
  in-neighbours' features, then a perceptron with two rectified hidden layers, then the logistic function; the reference
  computes the same on whole arrays. On the extended reals the two results are equal entry by entry.

  Both programs form the summed neighbour features by the same operations (a gather along the edge list and a
  scatter-add), so that array is carried whole on both sides and never opened. The kernel then works on five blocks of
  2000 nodes with the weights transposed beforehand, the reference on all nodes at once with the weights transposed
  inside each product; every product is the plain sum over the shared axis on both sides, the biases are added in the
  same order, the rectifier is the maximum with zero on both sides, and the reference's `1 / (1 + e^(-s))` is the
  kernel's logistic function. The kernel's change of float format between layers is the identity on the extended
  reals. No step rearranges a sum or a product, so the precondition (finite inputs) is not used.

  The three frame claims are the generated frames (the reference's is its generated run with the result dropped); the
  idealization rewrote nothing, so its claim is trivial.
-/
import proofs.«166283_j7052336300582_1_alg».proof.Defs
import proofs.«166283_j7052336300582_1_alg».proof.Proof.Gen.Kernel
import proofs.«166283_j7052336300582_1_alg».proof.Proof.Gen.Kernel.Skeleton
import proofs.«166283_j7052336300582_1_alg».proof.Proof.Gen.Kernel.Launch
import proofs.«166283_j7052336300582_1_alg».proof.Proof.Gen.Kernel.Points
import proofs.«166283_j7052336300582_1_alg».proof.Proof.Gen.Kernel.Frame
import proofs.«166283_j7052336300582_1_alg».proof.Proof.Gen.KernelIdeal
import proofs.«166283_j7052336300582_1_alg».proof.Proof.Gen.KernelIdeal.Skeleton
import proofs.«166283_j7052336300582_1_alg».proof.Proof.Gen.KernelIdeal.Launch
import proofs.«166283_j7052336300582_1_alg».proof.Proof.Gen.KernelIdeal.Points
import proofs.«166283_j7052336300582_1_alg».proof.Proof.Gen.KernelIdeal.Frame
import proofs.«166283_j7052336300582_1_alg».proof.Proof.Gen.ReferenceIdeal
import proofs.«166283_j7052336300582_1_alg».proof.Proof.Gen.Pre_finite_inputs
import proofs.«166283_j7052336300582_1_alg».proof.Proof.Gen.KernelIdeal.Value
import proofs.«166283_j7052336300582_1_alg».proof.Proof.Gen.ReferenceIdeal.Run
import proofs.«166283_j7052336300582_1_alg».proof.Proof.Gen.ReferenceIdeal.Read
import proofs.«166283_j7052336300582_1_alg».proof.Proof.KernelValue
import proofs.«166283_j7052336300582_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two programs form the summed neighbour features by the same operations of the same two arguments. -/
theorem aggregated_same (x : FVec Ideal Cert.KernelIdeal.S10000x128 .f32) (e : IVec Cert.KernelIdeal.S2x640000 32) :
    Cert.ReferenceIdeal.Read.val_main_v13 (F := Ideal) x e = Cert.KernelIdeal.Whole.aggregated x e := rfl

/-- From memories agreeing on the arguments both programs end with the same result array: the kernel's run leaves
    `NodeMlp.out` of the summed neighbour features and the arguments, and the reference's last stage is that function
    of its own arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v44_eq, Cert.ReferenceIdeal.Row.result_eq, h0, h1, h2, h3, h4, h5, h6, h7, h8, h9, h10,
    aggregated_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
